-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x25x128 : Shape := ⟨3, ![50000, 25, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x25x128 : S_.BroadcastsInDim S50000x25x128 (![] : Fin 0 → Fin S50000x25x128.rank)
  reducesTo_S50000x25x128_S_d0_1_2 : S50000x25x128.ReducesTo [0, 1, 2] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_v13 : IVec S_ 1) (main_v16 : IVec S50000x25x128 1) : IVec S_ 1 :=
  let main_c_5 : IVec S_ 1 := constantI S_ 1 1#1
  let main_v17 : IVec S_ 1 := (fun x v => Host.reduce IntOp.andi x v reducesTo_S50000x25x128_S_d0_1_2 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S50000x128 .f32) (main_arg1 : FVec F S50000x25x128 .f32) (main_arg2 : FVec F S50000x128 .f32) (main_arg3 : FVec F S50000x25x128 .f32) (main_arg4 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x25x128 .f32 := Host.absf main_arg1
  let main_cst_0 : FVec F S_ .f32 := constant S_ .f32 0x7F800000#32
  let main_v5 : FVec F S50000x25x128 .f32 := broadcastInDim S50000x25x128 ![] bcast_S_S50000x25x128 main_cst_0
  let main_v6 : IVec S50000x25x128 1 := cmpf .olt main_v4 main_v5
  let main_c_1 : IVec S_ 1 := constantI S_ 1 1#1
  let main_v7 : IVec S_ 1 := (fun x v => Host.reduce IntOp.andi x v reducesTo_S50000x25x128_S_d0_1_2 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x25x128 .f32 := Host.absf main_arg3
  let main_cst_4 : FVec F S_ .f32 := constant S_ .f32 0x7F800000#32
  let main_v15 : FVec F S50000x25x128 .f32 := broadcastInDim S50000x25x128 ![] bcast_S_S50000x25x128 main_cst_4
  let main_v16 : IVec S50000x25x128 1 := cmpf .olt main_v14 main_v15
  fn_part1 (F := F) main_arg4 main_v13 main_v16
-- ==== Kernel.lean ====
abbrev S50000x128 : Shape := ⟨2, ![50000, 128]⟩
abbrev S50000x25x128 : Shape := ⟨3, ![50000, 25, 128]⟩
abbrev S256x128 : Shape := ⟨2, ![256, 128]⟩
abbrev S400x128 : Shape := ⟨2, ![400, 128]⟩
abbrev S400x25x128 : Shape := ⟨3, ![400, 25, 128]⟩
abbrev S128x128 : Shape := ⟨2, ![128, 128]⟩

abbrev nBuf : Space → Nat
  | .hbm => 7
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S50000x25x128, .f32⟩
  | .hbm, ⟨2, _⟩ => ⟨S50000x128, .f32⟩
  | .hbm, ⟨3, _⟩ => ⟨S50000x25x128, .f32⟩
  | .hbm, ⟨4, _⟩ => ⟨S256x128, .f32⟩
  | .hbm, ⟨5, _⟩ => ⟨S50000x128, .f32⟩
  | .hbm, ⟨6, _⟩ => ⟨S50000x128, .f32⟩
  | .local _ .vmem, ⟨0, _⟩ => ⟨S400x128, .f32⟩
  | .local _ .vmem, ⟨1, _⟩ => ⟨S400x128, .f32⟩
  | .local _ .vmem, ⟨2, _⟩ => ⟨S400x25x128, .f32⟩
  | .local _ .vmem, ⟨3, _⟩ => ⟨S400x25x128, .f32⟩
  | .local _ .vmem, ⟨4, _⟩ => ⟨S400x128, .f32⟩
  | .local _ .vmem, ⟨5, _⟩ => ⟨S400x128, .f32⟩
  | .local _ .vmem, ⟨6, _⟩ => ⟨S400x25x128, .f32⟩
  | .local _ .vmem, ⟨7, _⟩ => ⟨S400x25x128, .f32⟩
  | .local _ .vmem, ⟨8, _⟩ => ⟨S256x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S400x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x25x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x25x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S400x25x128_S400x25x128_0_0_0 : ∀ a, (![0, 0, 0] : Fin 3 → Nat) a + S400x25x128.size a ≤ S400x25x128.size a
  h_S400x25x128 : 0 < S400x25x128.numel
  reduces_S400x25x128_S400x128 : S400x25x128.Reduces [1] S400x128
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  bitsLt_bf16_f32 : FTy.bits .bf16 < FTy.bits .f32
  slices_S256x128_o128_0_S128x128 : S256x128.Slices ![128, 0] S128x128
  inb_S400x128_S400x128_0_0 : ∀ a, (![0, 0] : Fin 2 → Nat) a + S400x128.size a ≤ S400x128.size a
  h_S400x128 : 0 < S400x128.numel
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S50000x128.size a
  hwx0_0 : ∀ i : grid0.Coords, EltTy.bits .f32 = 32 ∨ (Rect.block (s := S50000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x25x128.size a ≤ S50000x25x128.size a
  hwx0_1 : ∀ i : grid0.Coords, EltTy.bits .f32 = 32 ∨ (Rect.block (s := S50000x25x128) S400x25x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S50000x128.size a
  hwx0_2 : ∀ i : grid0.Coords, EltTy.bits .f32 = 32 ∨ (Rect.block (s := S50000x128) S400x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x25x128.size a ≤ S50000x25x128.size a
  hwx0_3 : ∀ i : grid0.Coords, EltTy.bits .f32 = 32 ∨ (Rect.block (s := S50000x25x128) S400x25x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S50000x128.size a
  hwx0_5 : ∀ i : grid0.Coords, EltTy.bits .f32 = 32 ∨ (Rect.block (s := S50000x128) S400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S50000x128.size a
  hwx0_6 : ∀ i : grid0.Coords, EltTy.bits .f32 = 32 ∨ (Rect.block (s := S50000x128) S400x128.size (cc0_transform_6 i) (hinb0_6 i)).WholeWords (EltTy.packing .f32)

variable [Facts₀]

def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x25x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x25x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x25x128 : Shape := ⟨3, ![50000, 25, 128]⟩
abbrev S256x128 : Shape := ⟨2, ![256, 128]⟩
abbrev S_ : Shape := ⟨0, ![]⟩
abbrev S50000x256 : Shape := ⟨2, ![50000, 256]⟩

abbrev nBuf : Space → Nat
  | .hbm => 19
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x25x128, .f32⟩
  | .hbm, ⟨2, _⟩ => ⟨S50000x128, .f32⟩
  | .hbm, ⟨3, _⟩ => ⟨S50000x25x128, .f32⟩
  | .hbm, ⟨4, _⟩ => ⟨S256x128, .f32⟩
  | .hbm, ⟨5, _⟩ => ⟨S_, .f32⟩
  | .hbm, ⟨6, _⟩ => ⟨S50000x128, .f32⟩
  | .hbm, ⟨7, _⟩ => ⟨S_, .f32⟩
  | .hbm, ⟨8, _⟩ => ⟨S50000x128, .f32⟩
  | .hbm, ⟨9, _⟩ => ⟨S50000x128, .f32⟩
  | .hbm, ⟨10, _⟩ => ⟨S_, .f32⟩
  | .hbm, ⟨11, _⟩ => ⟨S50000x128, .f32⟩
  | .hbm, ⟨12, _⟩ => ⟨S_, .f32⟩
  | .hbm, ⟨13, _⟩ => ⟨S50000x128, .f32⟩
  | .hbm, ⟨14, _⟩ => ⟨S50000x128, .f32⟩
  | .hbm, ⟨15, _⟩ => ⟨S50000x256, .f32⟩
  | .hbm, ⟨16, _⟩ => ⟨S50000x256, .f32⟩
  | .hbm, ⟨17, _⟩ => ⟨S50000x128, .f32⟩
  | .hbm, ⟨18, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]

class Facts₀ : Prop where
  reducesTo_S50000x25x128_S50000x128_d1 : S50000x25x128.ReducesTo [1] S50000x128
  h_S_ : 0 < S_.numel
  bcast_S_S50000x128 : S_.BroadcastsInDim S50000x128 (![] : Fin 0 → Fin S50000x128.rank)
  concatenates_S50000x128_S50000x128_S50000x256_d1 : Shape.Concatenates [S50000x128, S50000x128] S50000x256 1
  dot_S50000x256_S256x128_S50000x128_1_0_0_1_n_n_wf : DotDims.WF S50000x256 S256x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.SelfAndMean.lean ====
/-
  What both programs compute, as one function of the argument arrays.

  For a feature matrix `x` (n rows of 128), a neighbour tensor `xn` (n rows of 25 neighbours of 128) and a weight
  matrix `w` of 256 rows and 128 columns, entry (r, c) of the result is

      ∑ k < 128, x[r, k] · w[k, c]  +  ∑ k < 128, (∑ s < 25, xn[r, s, k]) / 25 · w[128 + k, c] :

  the row's own features against the upper half of `w` plus the mean of its neighbours against the lower half. The
  divisor is kept as the binary word of 25.0; the same word stands on both sides and is never evaluated.

  The one law that joins the two programs is here too: a sum over 256 terms is the sum of its first 128 terms
  plus the sum of its last 128. It needs only that addition on the extended reals is associative and commutative,
  so no finiteness of the inputs is used anywhere.
-/
import Idealize.ShloMosaic.Lib.ValueIdx
import Idealize.ShloMosaic.PureOps.Ideal.Laws

noncomputable section

namespace Cert.SelfAndMean

open Idealize.ShloMosaic Idealize.ShloMosaic.ValueIdx

/-- Row `k` of the upper half of the weight matrix. -/
abbrev upper (k : Fin 128) : Fin 256 := ⟨k.val, by omega⟩

/-- Row `k` of the lower half of the weight matrix. -/
abbrev lower (k : Fin 128) : Fin 256 := ⟨128 + k.val, by omega⟩

/-- The mean over the 25 neighbours of row `r`, feature `k`: their sum divided by 25.0. -/
def neighbourMean {n : Nat} (xn : (⟨3, ![n, 25, 128]⟩ : Shape).Idx → EReal) (r : Fin n) (k : Fin 128) : EReal :=
  Ideal.div (∑ s : Fin 25, xn (ix3 r s k)) (Ideal.ofBits .f32 0x41C80000#32)

/-- Entry (r, c) of the result: own features against the upper weight rows plus neighbour mean against the lower. -/
def rowOut {n : Nat} (x : (⟨2, ![n, 128]⟩ : Shape).Idx → EReal) (xn : (⟨3, ![n, 25, 128]⟩ : Shape).Idx → EReal)
    (w : (⟨2, ![256, 128]⟩ : Shape).Idx → EReal) (r : Fin n) (c : Fin 128) : EReal :=
  (∑ k : Fin 128, x (ix2 r k) * w (ix2 (upper k) c)) + ∑ k : Fin 128, neighbourMean xn r k * w (ix2 (lower k) c)

/-- The whole result array over 50000 rows. -/
def result (x : (⟨2, ![50000, 128]⟩ : Shape).Idx → EReal) (xn : (⟨3, ![50000, 25, 128]⟩ : Shape).Idx → EReal)
    (w : (⟨2, ![256, 128]⟩ : Shape).Idx → EReal) : (⟨2, ![50000, 128]⟩ : Shape).Idx → EReal :=
  fun i => rowOut x xn w (i 0) (i 1)

/-- A sum over 256 terms is the sum over the first 128 plus the sum over the last 128. -/
theorem sum_halves (f : Fin 256 → EReal) : ∑ k : Fin 256, f k = (∑ k : Fin 128, f (upper k)) + ∑ k : Fin 128, f (lower k) := by
  have h := Fin.sum_univ_add (a := 128) (b := 128) f
  refine h.trans ?_
  refine congrArg₂ (· + ·) (Finset.sum_congr rfl fun k _ => congrArg f (Fin.ext rfl)) (Finset.sum_congr rfl fun k _ => congrArg f (Fin.ext rfl))

end Cert.SelfAndMean

end
-- ==== Proof.BodyValue.lean ====
/-
  The kernel body's two stored values, read at an index.

  At one grid point the body loads a block of 400 rows of own features, the matching block of 400 × 25 neighbour
  rows and the whole weight matrix. It sums the neighbours over their axis and divides by 25.0, multiplies the own
  features by the upper 128 weight rows and the neighbour mean by the lower 128 (each product into a zero
  accumulator, the narrowing to bf16 being the identity on extended reals) and adds the two products. Entry
  (p, q) of what it stores is therefore `rowOut` of the three loaded blocks at (p, q).
-/
import proofs.«127641_j79714593014087_1_alg».proof.Proof.Gen.KernelIdeal.Skeleton
import proofs.«127641_j79714593014087_1_alg».proof.Proof.SelfAndMean
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.SelfAndMean

/-! ## The product of a 400 × 128 block with a 128 × 128 block, at an index -/

theorem lhs_axis0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_axis1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_axis0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_axis1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Into a zero accumulator the product's entry (p, q) is the plain sum over the 128 contracted columns. -/
theorem product_at (a : FVec Ideal S400x128 .bf16) (b : FVec Ideal S128x128 .bf16) (p : Fin 400) (q : Fin 128) :
    matmul dot_S400x128_S128x128_S400x128_1_0_0_1_n_n none a b (constant S400x128 .f32 0x00000000#32) (ix2 p q)
      = ∑ k : Fin 128, a (ix2 p k) * b (ix2 k q) := by
  refine (Ideal.matmul_constant_zero_apply dot_S400x128_S128x128_S400x128_1_0_0_1_n_n none a b (ix2 p q)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun ax => Fin.ext (by
    match ax with
    | ⟨0, _⟩ => exact lhs_axis0 _ _
    | ⟨1, _⟩ => exact (lhs_axis1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun ax => Fin.ext (by
    match ax with
    | ⟨0, _⟩ => exact (rhs_axis0 _ _).trans hk
    | ⟨1, _⟩ => exact rhs_axis1 _ _)
  rw [el, er]

/-! ## The neighbour sum at an index -/

/-- The sum over the neighbour axis of a 400 × 25 × 128 block, at (p, k), is the sum of its 25 entries there. -/
theorem neighbourSum_at (v : Vec Ideal S400x25x128 .f32) (hφ : FKind.Formats .f32)
    (hacc : (0x00000000#32 : BitVec 32) = FKind.add.neutral .f32 hφ) (p : Fin 400) (k : Fin 128) :
    multiReduction (F := Ideal) .add [1] S400x128 v 0x00000000#32 reduces_S400x25x128_S400x128 hφ hacc (ix2 p k)
      = ∑ s : Fin 25, v (ix3 p s k) := by
  refine (Ideal.multiReduction_add_single v 0x00000000#32 reduces_S400x25x128_S400x128 hφ hacc (ix2 p k)).trans ?_
  refine Finset.sum_congr rfl fun s _ => ?_
  exact congrArg v (funext fun ax => Fin.ext (by match ax with | ⟨0, _⟩ => rfl | ⟨1, _⟩ => rfl | ⟨2, _⟩ => rfl))

/-! ## The two halves of the weight matrix -/

/-- Row `k` of the upper half of the loaded weight matrix. -/
theorem upperHalf_at (w : Vec Ideal S256x128 .f32) (k q : Fin 128) :
    k0_pay1 (F := Ideal) w (ix2 k q) = w (ix2 (upper k) q) := by
  unfold k0_pay1
  exact slice2_axis0_apply 0 w slices_S256x128_o0_0_S128x128 k q (upper k) (Nat.zero_add _).symm

/-- Row `k` of the lower half of the loaded weight matrix. -/
theorem lowerHalf_at (w : Vec Ideal S256x128 .f32) (k q : Fin 128) :
    k0_pay2 (F := Ideal) w (ix2 k q) = w (ix2 (lower k) q) := by
  unfold k0_pay2
  exact slice2_axis0_apply 128 w slices_S256x128_o128_0_S128x128 k q (lower k) rfl

/-! ## The stored values -/

/-- What the body stores for the first output, at (p, q): `rowOut` of the own-feature block, the neighbour block and
    the weights. -/
theorem pay3_at (v0 : Vec Ideal S400x25x128 .f32) (v8 : Vec Ideal S256x128 .f32) (v13 : Vec Ideal S400x128 .f32)
    (p : Fin 400) (q : Fin 128) :
    k0_pay3 (F := Ideal) v0 v8 v13 (ix2 p q) = rowOut (n := 400) v13 v0 v8 p q := by
  unfold k0_pay3
  refine (congrArg₂ (· + ·) (product_at _ _ p q) (product_at _ _ p q)).trans ?_
  unfold rowOut neighbourMean
  refine congrArg₂ (· + ·) (Finset.sum_congr rfl fun k _ => ?_) (Finset.sum_congr rfl fun k _ => ?_)
  · exact congrArg (v13 (ix2 p k) * ·) (upperHalf_at v8 k q)
  · refine congrArg₂ (· * ·) ?_ (lowerHalf_at v8 k q)
    exact congrArg (Ideal.div · (Ideal.ofBits .f32 0x41C80000#32)) (neighbourSum_at v0 _ _ p k)

/-- The same for the second output. -/
theorem pay4_at (v4 : Vec Ideal S400x25x128 .f32) (v8 : Vec Ideal S256x128 .f32) (v15 : Vec Ideal S400x128 .f32)
    (p : Fin 400) (q : Fin 128) :
    k0_pay4 (F := Ideal) v4 v8 v15 (ix2 p q) = rowOut (n := 400) v15 v4 v8 p q := by
  unfold k0_pay4
  refine (congrArg₂ (· + ·) (product_at _ _ p q) (product_at _ _ p q)).trans ?_
  unfold rowOut neighbourMean
  refine congrArg₂ (· + ·) (Finset.sum_congr rfl fun k _ => ?_) (Finset.sum_congr rfl fun k _ => ?_)
  · exact congrArg (v15 (ix2 p k) * ·) (upperHalf_at v8 k q)
  · refine congrArg₂ (· * ·) ?_ (lowerHalf_at v8 k q)
    exact congrArg (Ideal.div · (Ideal.ofBits .f32 0x41C80000#32)) (neighbourSum_at v4 _ _ p k)

end Cert.KernelIdeal.BodyValue

end
-- ==== Proof.KernelValue.lean ====
/-
  The kernel's two result arrays after the run, as `result` of the argument arrays.

  The grid has 125 points. At point `t` the own-feature, neighbour and output windows all sit at block `t` of
  their arrays (rows 400·t … 400·t + 399), and the weight window is the whole weight matrix at every point. So
  the three blocks the body loads are those rows of the arguments, what it stores at (p, q) is `rowOut` of the
  arguments at row 400·t + p, and point `t` writes back block `t` of `result`. Row `i` lies in block `i / 400`, so
  the 125 blocks cover each output array and the array after the run is `result` of the arguments.
-/
import proofs.«127641_j79714593014087_1_alg».proof.Proof.Gen.KernelIdeal.Value
import proofs.«127641_j79714593014087_1_alg».proof.Proof.BodyValue
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Value Cert.KernelIdeal.BodyValue
open Idealize.ShloMosaic.ValueIdx Cert.SelfAndMean

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 125 points: the row windows sit at block `t`, the weight window at
    block zero. -/
theorem index_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 125 := by
  have h : t.val < grid0.N := t.isLt
  rw [N_0] at h; exact h

/-! ## The input windows' blocks as rows of the arguments -/

/-- Window 0's block at point `t` is rows 400·t … of the source features. -/
theorem srcBlock_at (c : Dev nD) (t : Fin cfg0.N) (p : Fin 400) (k : Fin 128) (r : Fin 50000) (hr : r.val = t.val * 400 + p.val) :
    (iblk m c 0 t : Vec Ideal S400x128 .f32) (ix2 p k) = (V m c main_arg0 : S50000x128.Idx → EReal) (ix2 r k) := by
  obtain ⟨e0, e1, -⟩ := index_facts t
  unfold iblk
  rw [View.read_apply]
  show V m c main_arg0 _ = V m c main_arg0 _
  congr 1
  funext a
  apply Fin.ext
  match a with
  | ⟨0, _⟩ => show win0_0.index t 0 * 400 + 1 * p.val = r.val; rw [e0, hr]; omega
  | ⟨1, _⟩ => show win0_0.index t 1 * 128 + 1 * k.val = k.val; rw [e1]; omega

/-- Window 2's block at point `t` is rows 400·t … of the destination features. -/
theorem dstBlock_at (c : Dev nD) (t : Fin cfg0.N) (p : Fin 400) (k : Fin 128) (r : Fin 50000) (hr : r.val = t.val * 400 + p.val) :
    (iblk m c 2 t : Vec Ideal S400x128 .f32) (ix2 p k) = (V m c main_arg2 : S50000x128.Idx → EReal) (ix2 r k) := by
  obtain ⟨-, -, -, -, -, e0, e1, -⟩ := index_facts t
  unfold iblk
  rw [View.read_apply]
  show V m c main_arg2 _ = V m c main_arg2 _
  congr 1
  funext a
  apply Fin.ext
  match a with
  | ⟨0, _⟩ => show win0_2.index t 0 * 400 + 1 * p.val = r.val; rw [e0, hr]; omega
  | ⟨1, _⟩ => show win0_2.index t 1 * 128 + 1 * k.val = k.val; rw [e1]; omega

/-- Window 1's block at point `t` is rows 400·t … of the source neighbours. -/
theorem srcNegBlock_at (c : Dev nD) (t : Fin cfg0.N) (p : Fin 400) (s : Fin 25) (k : Fin 128) (r : Fin 50000)
    (hr : r.val = t.val * 400 + p.val) :
    (iblk m c 1 t : Vec Ideal S400x25x128 .f32) (ix3 p s k) = (V m c main_arg1 : S50000x25x128.Idx → EReal) (ix3 r s k) := by
  obtain ⟨-, -, e0, e1, e2, -⟩ := index_facts t
  unfold iblk
  rw [View.read_apply]
  show V m c main_arg1 _ = V m c main_arg1 _
  congr 1
  funext a
  apply Fin.ext
  match a with
  | ⟨0, _⟩ => show win0_1.index t 0 * 400 + 1 * p.val = r.val; rw [e0, hr]; omega
  | ⟨1, _⟩ => show win0_1.index t 1 * 25 + 1 * s.val = s.val; rw [e1]; omega
  | ⟨2, _⟩ => show win0_1.index t 2 * 128 + 1 * k.val = k.val; rw [e2]; omega

/-- Window 3's block at point `t` is rows 400·t … of the destination neighbours. -/
theorem dstNegBlock_at (c : Dev nD) (t : Fin cfg0.N) (p : Fin 400) (s : Fin 25) (k : Fin 128) (r : Fin 50000)
    (hr : r.val = t.val * 400 + p.val) :
    (iblk m c 3 t : Vec Ideal S400x25x128 .f32) (ix3 p s k) = (V m c main_arg3 : S50000x25x128.Idx → EReal) (ix3 r s k) := by
  obtain ⟨-, -, -, -, -, -, -, e0, e1, e2, -⟩ := index_facts t
  unfold iblk
  rw [View.read_apply]
  show V m c main_arg3 _ = V m c main_arg3 _
  congr 1
  funext a
  apply Fin.ext
  match a with
  | ⟨0, _⟩ => show win0_3.index t 0 * 400 + 1 * p.val = r.val; rw [e0, hr]; omega
  | ⟨1, _⟩ => show win0_3.index t 1 * 25 + 1 * s.val = s.val; rw [e1]; omega
  | ⟨2, _⟩ => show win0_3.index t 2 * 128 + 1 * k.val = k.val; rw [e2]; omega

/-- Window 4's block at every point is the whole weight matrix. -/
theorem weights_at (c : Dev nD) (t : Fin cfg0.N) (a : Fin 256) (b : Fin 128) :
    (iblk m c 4 t : Vec Ideal S256x128 .f32) (ix2 a b) = (V m c main_arg4 : S256x128.Idx → EReal) (ix2 a b) := by
  obtain ⟨-, -, -, -, -, -, -, -, -, -, e0, e1, -⟩ := index_facts t
  unfold iblk
  rw [View.read_apply]
  show V m c main_arg4 _ = V m c main_arg4 _
  congr 1
  funext ax
  apply Fin.ext
  match ax with
  | ⟨0, _⟩ => show win0_4.index t 0 * 256 + 1 * a.val = a.val; rw [e0]; omega
  | ⟨1, _⟩ => show win0_4.index t 1 * 128 + 1 * b.val = b.val; rw [e1]; omega

/-! ## One point's stored value, over the arguments -/

/-- If three loaded blocks are rows `base …` of `X` and `XN` and the whole of `W`, then `rowOut` of the blocks at row
    `p` is `rowOut` of the arrays at row `base + p`. -/
theorem rowOut_of_rows (X : S50000x128.Idx → EReal) (XN : S50000x25x128.Idx → EReal) (W : S256x128.Idx → EReal)
    (xb : Vec Ideal S400x128 .f32) (xnb : Vec Ideal S400x25x128 .f32) (wb : Vec Ideal S256x128 .f32)
    (p : Fin 400) (q : Fin 128) (r : Fin 50000)
    (hx : ∀ k : Fin 128, xb (ix2 p k) = X (ix2 r k))
    (hxn : ∀ (s : Fin 25) (k : Fin 128), xnb (ix3 p s k) = XN (ix3 r s k))
    (hw : ∀ (a : Fin 256) (b : Fin 128), wb (ix2 a b) = W (ix2 a b)) :
    rowOut (n := 400) xb xnb wb p q = rowOut (n := 50000) X XN W r q := by
  unfold rowOut neighbourMean
  simp only [hx, hxn, hw]

/-! ## Output window 5 -/

/-- What the body stores for this output at (p, q) of point `t`'s block, over the arguments: `result` at row
    400·t + p. -/
theorem stored5_at (c : Dev nD) (t : Fin cfg0.N) (p : Fin 400) (q : Fin 128) (r : Fin 50000) (hr : r.val = t.val * 400 + p.val) :
    k0_pay3 (F := Ideal) (iblk m c 1 t) (iblk m c 4 t) (iblk m c 0 t) (ix2 p q)
      = result (V m c main_arg0) (V m c main_arg1) (V m c main_arg4) (ix2 r q) := by
  refine (pay3_at (iblk m c 1 t) (iblk m c 4 t) (iblk m c 0 t) p q).trans ?_
  exact rowOut_of_rows (V m c main_arg0) (V m c main_arg1) (V m c main_arg4) (iblk m c 0 t) (iblk m c 1 t) (iblk m c 4 t) p q r
    (fun k => srcBlock_at m c t p k r hr) (fun s k => srcNegBlock_at m c t p s k r hr) (fun a b => weights_at m c t a b)

/-- The same at any index `j` of the block and any index `i` of the array with `i`'s row 400·t + `j`'s and the same
    column. -/
theorem stored5_idx (c : Dev nD) (t : Fin cfg0.N) (j : S400x128.Idx) (i : S50000x128.Idx)
    (h0 : (i 0).val = t.val * 400 + (j 0).val) (h1 : (i 1).val = (j 1).val) :
    k0_pay3 (F := Ideal) (iblk m c 1 t) (iblk m c 4 t) (iblk m c 0 t) j
      = result (V m c main_arg0) (V m c main_arg1) (V m c main_arg4) i := by
  obtain ⟨p, q, rfl⟩ : ∃ (p : Fin 400) (q : Fin 128), j = ix2 p q := ⟨j 0, j 1, eq_ix2 j⟩
  obtain ⟨r, q', rfl⟩ : ∃ (r : Fin 50000) (q' : Fin 128), i = ix2 r q' := ⟨i 0, i 1, eq_ix2 i⟩
  have hq : q' = q := Fin.ext h1
  subst hq
  exact stored5_at m c t p q' r h0

/-- WHAT POINT `t` WRITES BACK is block `t` of `result` of the arguments. -/
theorem flushed5_eq (c : Dev nD) (t : Fin cfg0.N) :
    (dats m 0 c).flushed 5 t = ((cfg0.win 5).blk t).view.read (Elt Ideal) (result (V m c main_arg0) (V m c main_arg1) (V m c main_arg4)) := by
  rw [flushed5]
  unfold out0_5
  rw [View.canon_unit_zero hz2]
  simp only [View.ld_unit_zero (S := S400x128) hz2, View.ld_unit_zero (S := S400x25x128) hz3, View.ld_unit_zero (S := S256x128) hz2]
  obtain ⟨-, -, -, -, -, -, -, -, -, -, -, -, e50, e51, e60, e61⟩ := index_facts t
  funext j
  refine stored5_idx m c t j (((cfg0.win 5).blk t).view.emb j) ?_ ?_
  · show win0_5.index t 0 * 400 + 1 * (j 0).val = t.val * 400 + (j 0).val
    rw [e50]; omega
  · show win0_5.index t 1 * 128 + 1 * (j 1).val = (j 1).val
    rw [e51]; omega

/-- An index of the array is in point `t`'s block iff each coordinate is in the block's range on its axis. -/
theorem mem_block5 (t : Fin cfg0.N) (i : S50000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0_0).slice (win0_5.rect t)).set ↔ _
  rw [View.set_slice_whole, Rect.mem_set_unit]
  exact Iff.rfl

/-- Every index of the array lies in the block of the point its row divided by 400 names. -/
theorem covered5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 125 := N_0
  have ht : (i 0).val / 400 < grid0.N := by rw [hN]; omega
  obtain ⟨-, -, -, -, -, -, -, -, -, -, -, -, e50, e51, e60, e61⟩ := index_facts ⟨(i 0).val / 400, ht⟩
  refine ⟨⟨(i 0).val / 400, ht⟩, flush0_5 _, ?_⟩
  rw [mem_block5]
  intro a
  match a with
  | ⟨0, _⟩ =>
    show win0_5.index ⟨(i 0).val / 400, ht⟩ 0 * 400 ≤ (i 0).val ∧ (i 0).val < win0_5.index ⟨(i 0).val / 400, ht⟩ 0 * 400 + 400
    rw [e50]; show (i 0).val / 400 * 400 ≤ (i 0).val ∧ (i 0).val < (i 0).val / 400 * 400 + 400; omega
  | ⟨1, _⟩ =>
    show win0_5.index ⟨(i 0).val / 400, ht⟩ 1 * 128 ≤ (i 1).val ∧ (i 1).val < win0_5.index ⟨(i 0).val / 400, ht⟩ 1 * 128 + 128
    rw [e51]; omega

/-- THE ARRAY after the run: `result` of the arguments. -/
theorem final5 (c : Dev nD) : (dats m 0 c).arrAt 5 cfg0.N
    = result (m ((c : Thread nD τ).loc main_arg0)) (m ((c : Thread nD τ).loc main_arg1)) (m ((c : Thread nD τ).loc main_arg4)) :=
  (dats m 0 c).arrAt_eq_of_cover 5 (result (V m c main_arg0) (V m c main_arg1) (V m c main_arg4)) (fun t _ => flushed5_eq m c t) covered5

/-! ## Output window 6 -/

/-- What the body stores for this output at (p, q) of point `t`'s block, over the arguments: `result` at row
    400·t + p. -/
theorem stored6_at (c : Dev nD) (t : Fin cfg0.N) (p : Fin 400) (q : Fin 128) (r : Fin 50000) (hr : r.val = t.val * 400 + p.val) :
    k0_pay4 (F := Ideal) (iblk m c 3 t) (iblk m c 4 t) (iblk m c 2 t) (ix2 p q)
      = result (V m c main_arg2) (V m c main_arg3) (V m c main_arg4) (ix2 r q) := by
  refine (pay4_at (iblk m c 3 t) (iblk m c 4 t) (iblk m c 2 t) p q).trans ?_
  exact rowOut_of_rows (V m c main_arg2) (V m c main_arg3) (V m c main_arg4) (iblk m c 2 t) (iblk m c 3 t) (iblk m c 4 t) p q r
    (fun k => dstBlock_at m c t p k r hr) (fun s k => dstNegBlock_at m c t p s k r hr) (fun a b => weights_at m c t a b)

/-- The same at any index `j` of the block and any index `i` of the array with `i`'s row 400·t + `j`'s and the same
    column. -/
theorem stored6_idx (c : Dev nD) (t : Fin cfg0.N) (j : S400x128.Idx) (i : S50000x128.Idx)
    (h0 : (i 0).val = t.val * 400 + (j 0).val) (h1 : (i 1).val = (j 1).val) :
    k0_pay4 (F := Ideal) (iblk m c 3 t) (iblk m c 4 t) (iblk m c 2 t) j
      = result (V m c main_arg2) (V m c main_arg3) (V m c main_arg4) i := by
  obtain ⟨p, q, rfl⟩ : ∃ (p : Fin 400) (q : Fin 128), j = ix2 p q := ⟨j 0, j 1, eq_ix2 j⟩
  obtain ⟨r, q', rfl⟩ : ∃ (r : Fin 50000) (q' : Fin 128), i = ix2 r q' := ⟨i 0, i 1, eq_ix2 i⟩
  have hq : q' = q := Fin.ext h1
  subst hq
  exact stored6_at m c t p q' r h0

/-- WHAT POINT `t` WRITES BACK is block `t` of `result` of the arguments. -/
theorem flushed6_eq (c : Dev nD) (t : Fin cfg0.N) :
    (dats m 0 c).flushed 6 t = ((cfg0.win 6).blk t).view.read (Elt Ideal) (result (V m c main_arg2) (V m c main_arg3) (V m c main_arg4)) := by
  rw [flushed6]
  unfold out0_6
  rw [View.canon_unit_zero hz2]
  simp only [View.ld_unit_zero (S := S400x128) hz2, View.ld_unit_zero (S := S400x25x128) hz3, View.ld_unit_zero (S := S256x128) hz2]
  obtain ⟨-, -, -, -, -, -, -, -, -, -, -, -, e50, e51, e60, e61⟩ := index_facts t
  funext j
  refine stored6_idx m c t j (((cfg0.win 6).blk t).view.emb j) ?_ ?_
  · show win0_6.index t 0 * 400 + 1 * (j 0).val = t.val * 400 + (j 0).val
    rw [e60]; omega
  · show win0_6.index t 1 * 128 + 1 * (j 1).val = (j 1).val
    rw [e61]; omega

/-- An index of the array is in point `t`'s block iff each coordinate is in the block's range on its axis. -/
theorem mem_block6 (t : Fin cfg0.N) (i : S50000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v0_1).slice (win0_6.rect t)).set ↔ _
  rw [View.set_slice_whole, Rect.mem_set_unit]
  exact Iff.rfl

/-- Every index of the array lies in the block of the point its row divided by 400 names. -/
theorem covered6 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 125 := N_0
  have ht : (i 0).val / 400 < grid0.N := by rw [hN]; omega
  obtain ⟨-, -, -, -, -, -, -, -, -, -, -, -, e50, e51, e60, e61⟩ := index_facts ⟨(i 0).val / 400, ht⟩
  refine ⟨⟨(i 0).val / 400, ht⟩, flush0_6 _, ?_⟩
  rw [mem_block6]
  intro a
  match a with
  | ⟨0, _⟩ =>
    show win0_6.index ⟨(i 0).val / 400, ht⟩ 0 * 400 ≤ (i 0).val ∧ (i 0).val < win0_6.index ⟨(i 0).val / 400, ht⟩ 0 * 400 + 400
    rw [e60]; show (i 0).val / 400 * 400 ≤ (i 0).val ∧ (i 0).val < (i 0).val / 400 * 400 + 400; omega
  | ⟨1, _⟩ =>
    show win0_6.index ⟨(i 0).val / 400, ht⟩ 1 * 128 ≤ (i 1).val ∧ (i 1).val < win0_6.index ⟨(i 0).val / 400, ht⟩ 1 * 128 + 128
    rw [e61]; omega

/-- THE ARRAY after the run: `result` of the arguments. -/
theorem final6 (c : Dev nD) : (dats m 0 c).arrAt 6 cfg0.N
    = result (m ((c : Thread nD τ).loc main_arg2)) (m ((c : Thread nD τ).loc main_arg3)) (m ((c : Thread nD τ).loc main_arg4)) :=
  (dats m 0 c).arrAt_eq_of_cover 6 (result (V m c main_arg2) (V m c main_arg3) (V m c main_arg4)) (fun t _ => flushed6_eq m c t) covered6

/-! ## The run, read -/

/-- The frame run re-posted: each output array at `result` of its arguments, the arguments unchanged. -/
theorem run : θ_run defs (onTc (τ := τ) (main (F := Ideal))) ⟨m, fun _ => 0, ρ⟩ fun r => ∀ c : Dev nD,
      r.2.mem ((c : Thread nD τ).loc main_v0_0) = result (m ((c : Thread nD τ).loc main_arg0)) (m ((c : Thread nD τ).loc main_arg1)) (m ((c : Thread nD τ).loc main_arg4))
      ∧ r.2.mem ((c : Thread nD τ).loc main_v0_1) = result (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2⟩)
    (Cert.KernelIdeal.Value.run_blocks m ρ)

end Cert.KernelIdeal.KernelValue

end
-- ==== Proof.RefValue.lean ====
/-
  The reference's two results are `result` of their arguments.

  The reference sums each row's 25 neighbours and divides by 25.0, lays the own features and that mean side by
  side into a row of 256, and multiplies by the whole 256-row weight matrix. Read at (r, c) the product is a sum
  over 256 columns; its first 128 terms read the own features against the upper weight rows and its last 128
  the neighbour mean against the lower rows, which is `rowOut`.
-/
import proofs.«127641_j79714593014087_1_alg».proof.Proof.Gen.ReferenceIdeal.Read
import proofs.«127641_j79714593014087_1_alg».proof.Proof.SelfAndMean
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.SelfAndMean

/-! ## The two pieces of a row of 256 -/

/-- The first 128 columns of the joined row are the first piece's. -/
theorem joined_left (x y : (⟨S50000x128, .f32⟩ : BufTy).Contents (Elt Ideal)) (r : Fin 50000) (k : Fin 128) :
    concatenate S50000x256 1 [⟨S50000x128, x⟩, ⟨S50000x128, y⟩] concatenates_S50000x128_S50000x128_S50000x256_d1 (ix2 r (upper k)) = x (ix2 r k) :=
  concatenate_pair_apply_left 1 x y concatenates_S50000x128_S50000x128_S50000x256_d1 (ix2 r (upper k)) rfl (ix2 r k)
    (fun b => by match b with | ⟨0, _⟩ => rfl | ⟨1, _⟩ => rfl)

/-- The last 128 columns of the joined row are the second piece's. -/
theorem joined_right (x y : (⟨S50000x128, .f32⟩ : BufTy).Contents (Elt Ideal)) (r : Fin 50000) (k : Fin 128) :
    concatenate S50000x256 1 [⟨S50000x128, x⟩, ⟨S50000x128, y⟩] concatenates_S50000x128_S50000x128_S50000x256_d1 (ix2 r (lower k)) = y (ix2 r k) :=
  concatenate_pair_apply_right 1 x y concatenates_S50000x128_S50000x128_S50000x256_d1 (ix2 r (lower k)) rfl rfl (ix2 r k)
    (fun b hb => by match b with | ⟨0, _⟩ => rfl | ⟨1, _⟩ => exact absurd rfl hb)
    (by show k.val + 128 = 128 + k.val; omega)

/-! ## The host's neighbour mean -/

/-- The mean the reference takes of the source side's neighbours, at (r, k). -/
theorem mean_src (x1 : (⟨S50000x25x128, .f32⟩ : BufTy).Contents (Elt Ideal)) (r : Fin 50000) (k : Fin 128) :
    val_main_v5 (F := Ideal) x1 (ix2 r k) = neighbourMean (n := 50000) x1 r k := by
  rw [val_main_v5_apply, val_main_v3_apply, val_main_v4_apply, val_main_cst_2_apply, val_main_cst_1_apply]
  simp only [Ideal.hostDivf_def, Ideal.ofBits_def, Ideal.ofBits_zero_f32, zero_add]
  unfold neighbourMean
  exact congrArg (Ideal.div · (Ideal.ofBits .f32 0x41C80000#32)) (Finset.sum_congr rfl fun s _ =>
    congrArg x1 (funext fun a => Fin.ext (by match a with | ⟨0, _⟩ => rfl | ⟨1, _⟩ => rfl | ⟨2, _⟩ => rfl)))

/-- The mean the reference takes of the destination side's neighbours, at (r, k). -/
theorem mean_dst (x3 : (⟨S50000x25x128, .f32⟩ : BufTy).Contents (Elt Ideal)) (r : Fin 50000) (k : Fin 128) :
    val_main_v2 (F := Ideal) x3 (ix2 r k) = neighbourMean (n := 50000) x3 r k := by
  rw [val_main_v2_apply, val_main_v0_apply, val_main_v1_apply, val_main_cst_0_apply, val_main_cst_apply]
  simp only [Ideal.hostDivf_def, Ideal.ofBits_def, Ideal.ofBits_zero_f32, zero_add]
  unfold neighbourMean
  exact congrArg (Ideal.div · (Ideal.ofBits .f32 0x41C80000#32)) (Finset.sum_congr rfl fun s _ =>
    congrArg x3 (funext fun a => Fin.ext (by match a with | ⟨0, _⟩ => rfl | ⟨1, _⟩ => rfl | ⟨2, _⟩ => rfl)))

/-! ## The two results -/

/-- The source side's result is `result` of the source features, the source neighbours and the weights. -/
theorem src_result (x0 : (⟨S50000x128, .f32⟩ : BufTy).Contents (Elt Ideal)) (x1 : (⟨S50000x25x128, .f32⟩ : BufTy).Contents (Elt Ideal))
    (x4 : (⟨S256x128, .f32⟩ : BufTy).Contents (Elt Ideal)) :
    val_main_v9 (F := Ideal) x0 x1 x4 = result x0 x1 x4 := by
  funext i
  obtain ⟨r, c, rfl⟩ : ∃ (r : Fin 50000) (c : Fin 128), i = ix2 r c := ⟨i 0, i 1, eq_ix2 i⟩
  rw [val_main_v9_apply, sum_halves]
  show _ = rowOut x0 x1 x4 r c
  unfold rowOut
  refine congrArg₂ (· + ·) (Finset.sum_congr rfl fun k _ => ?_) (Finset.sum_congr rfl fun k _ => ?_)
  · have e1 : lidx_main_v9 (ix2 r c) (upper k) = ix2 r (upper k) :=
      funext fun a => Fin.ext (by match a with | ⟨0, _⟩ => rfl | ⟨1, _⟩ => rfl)
    have e2 : ridx_main_v9 (ix2 r c) (upper k) = ix2 (upper k) c :=
      funext fun a => Fin.ext (by match a with | ⟨0, _⟩ => rfl | ⟨1, _⟩ => rfl)
    rw [e1, e2]
    unfold val_main_v7
    rw [joined_left]
  · have e1 : lidx_main_v9 (ix2 r c) (lower k) = ix2 r (lower k) :=
      funext fun a => Fin.ext (by match a with | ⟨0, _⟩ => rfl | ⟨1, _⟩ => rfl)
    have e2 : ridx_main_v9 (ix2 r c) (lower k) = ix2 (lower k) c :=
      funext fun a => Fin.ext (by match a with | ⟨0, _⟩ => rfl | ⟨1, _⟩ => rfl)
    rw [e1, e2]
    unfold val_main_v7
    rw [joined_right, mean_src]

/-- The destination side's result is `result` of the destination features, the destination neighbours and the weights. -/
theorem dst_result (x2 : (⟨S50000x128, .f32⟩ : BufTy).Contents (Elt Ideal)) (x3 : (⟨S50000x25x128, .f32⟩ : BufTy).Contents (Elt Ideal))
    (x4 : (⟨S256x128, .f32⟩ : BufTy).Contents (Elt Ideal)) :
    val_main_v8 (F := Ideal) x2 x3 x4 = result x2 x3 x4 := by
  funext i
  obtain ⟨r, c, rfl⟩ : ∃ (r : Fin 50000) (c : Fin 128), i = ix2 r c := ⟨i 0, i 1, eq_ix2 i⟩
  rw [val_main_v8_apply, sum_halves]
  show _ = rowOut x2 x3 x4 r c
  unfold rowOut
  refine congrArg₂ (· + ·) (Finset.sum_congr rfl fun k _ => ?_) (Finset.sum_congr rfl fun k _ => ?_)
  · have e1 : lidx_main_v8 (ix2 r c) (upper k) = ix2 r (upper k) :=
      funext fun a => Fin.ext (by match a with | ⟨0, _⟩ => rfl | ⟨1, _⟩ => rfl)
    have e2 : ridx_main_v8 (ix2 r c) (upper k) = ix2 (upper k) c :=
      funext fun a => Fin.ext (by match a with | ⟨0, _⟩ => rfl | ⟨1, _⟩ => rfl)
    rw [e1, e2]
    unfold val_main_v6
    rw [joined_left]
  · have e1 : lidx_main_v8 (ix2 r c) (lower k) = ix2 r (lower k) :=
      funext fun a => Fin.ext (by match a with | ⟨0, _⟩ => rfl | ⟨1, _⟩ => rfl)
    have e2 : ridx_main_v8 (ix2 r c) (lower k) = ix2 (lower k) c :=
      funext fun a => Fin.ext (by match a with | ⟨0, _⟩ => rfl | ⟨1, _⟩ => rfl)
    rw [e1, e2]
    unfold val_main_v6
    rw [joined_right, mean_dst]

end Cert.ReferenceIdeal.RefValue

end
-- ==== Proof.lean ====
/-
  The proof of `Cert.Claim`: a Pallas kernel that, for each of two node sets, multiplies the concatenation of a
  node's own features and the mean of its 25 sampled neighbours by a shared 256 × 128 weight matrix, against the
  jnp reference that does exactly that.

  The kernel never forms the concatenation. Per block of 400 rows it multiplies the own features by the upper 128
  rows of the weights and the neighbour mean by the lower 128 rows, and adds the two products. On the extended
  reals both programs therefore give, at (r, c),

      ∑ k < 128, x[r, k] · w[k, c]  +  ∑ k < 128, (∑ s < 25, xn[r, s, k]) / 25 · w[128 + k, c],

  the reference because its sum over the 256 joined columns splits into its first and last 128 terms. Only
  associativity and commutativity of addition are used, so the precondition (finite inputs) is never opened. The
  narrowing of the matrix operands to bf16 is the identity on extended reals, both means divide by the same 25.0,
  and no operation of the kernel was rewritten when it was read on the extended reals, so `preserves` is `True`.

  The three frames are the generated ones (the reference's from its generated run). The value side: the
  specification and the splitting law (Proof/SelfAndMean.lean), the kernel body's stored values at an index
  (Proof/BodyValue.lean), the kernel's arrays after the run (Proof/KernelValue.lean), the reference's results
  (Proof/RefValue.lean).
-/
import proofs.«127641_j79714593014087_1_alg».proof.Defs
import proofs.«127641_j79714593014087_1_alg».proof.Proof.Gen.Kernel
import proofs.«127641_j79714593014087_1_alg».proof.Proof.Gen.Kernel.Skeleton
import proofs.«127641_j79714593014087_1_alg».proof.Proof.Gen.Kernel.Launch
import proofs.«127641_j79714593014087_1_alg».proof.Proof.Gen.Kernel.Points
import proofs.«127641_j79714593014087_1_alg».proof.Proof.Gen.Kernel.Frame
import proofs.«127641_j79714593014087_1_alg».proof.Proof.Gen.KernelIdeal
import proofs.«127641_j79714593014087_1_alg».proof.Proof.Gen.KernelIdeal.Skeleton
import proofs.«127641_j79714593014087_1_alg».proof.Proof.Gen.KernelIdeal.Launch
import proofs.«127641_j79714593014087_1_alg».proof.Proof.Gen.KernelIdeal.Points
import proofs.«127641_j79714593014087_1_alg».proof.Proof.Gen.KernelIdeal.Frame
import proofs.«127641_j79714593014087_1_alg».proof.Proof.Gen.ReferenceIdeal
import proofs.«127641_j79714593014087_1_alg».proof.Proof.Gen.Pre_finite_inputs
import proofs.«127641_j79714593014087_1_alg».proof.Proof.Gen.KernelIdeal.Value
import proofs.«127641_j79714593014087_1_alg».proof.Proof.Gen.ReferenceIdeal.Run
import proofs.«127641_j79714593014087_1_alg».proof.Proof.Gen.ReferenceIdeal.Read
import proofs.«127641_j79714593014087_1_alg».proof.Proof.SelfAndMean
import proofs.«127641_j79714593014087_1_alg».proof.Proof.BodyValue
import proofs.«127641_j79714593014087_1_alg».proof.Proof.KernelValue
import proofs.«127641_j79714593014087_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for the reading on the extended reals. -/
theorem preserves : Cert.preserves_Kernel_KernelIdeal := trivial

/-- From memories agreeing on the arguments both programs end with each result array at `result` of its
    arguments: the kernel by its blocks, the reference by splitting its sum over the joined columns. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v9_eq, Cert.ReferenceIdeal.RefValue.src_result,
      (hagree c).1, (hagree c).2.1, (hagree c).2.2.2.2]
  · rw [Cert.ReferenceIdeal.Read.val_main_v8_eq, Cert.ReferenceIdeal.RefValue.dst_result,
      (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
